-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S64x512 : Shape := ⟨2, ![64, 512]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x512 .f32) (main_arg1 : FVec F S64x512 .f32) (main_arg2 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x512 : Shape := ⟨2, ![8192, 512]⟩
abbrev S64x512 : Shape := ⟨2, ![64, 512]⟩
abbrev S64 : Shape := ⟨1, ![64]⟩
abbrev S1x64 : Shape := ⟨2, ![1, 64]⟩
abbrev S8192x64 : Shape := ⟨2, ![8192, 64]⟩
abbrev S512x512 : Shape := ⟨2, ![512, 512]⟩
abbrev S512x64 : Shape := ⟨2, ![512, 64]⟩
abbrev S512x128 : Shape := ⟨2, ![512, 128]⟩
abbrev S64x128 : Shape := ⟨2, ![64, 128]⟩
abbrev S512x1x128 : Shape := ⟨3, ![512, 1, 128]⟩
abbrev S1x64x128 : Shape := ⟨3, ![1, 64, 128]⟩
abbrev S512x64x128 : Shape := ⟨3, ![512, 64, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S64x512, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S512x512, .f32⟩
  | .local _ .vmem, ⟨1, _⟩ => ⟨S512x512, .f32⟩
  | .local _ .vmem, ⟨2, _⟩ => ⟨S64x512, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S512x512_S512x128_0_0 : ∀ a, (![0, 0] : Fin 2 → Nat) a + S512x128.size a ≤ S512x512.size a
  h_S512x128 : 0 < S512x128.numel
  inb_S64x512_S64x128_0_0 : ∀ a, (![0, 0] : Fin 2 → Nat) a + S64x128.size a ≤ S64x512.size a
  h_S64x128 : 0 < S64x128.numel
  shapeCasts_S512x128_S512x1x128 : S512x128.ShapeCasts S512x1x128
  shapeCasts_S64x128_S1x64x128 : S64x128.ShapeCasts S1x64x128
  broadcasts_S512x1x128_S512x64x128 : S512x1x128.Broadcasts S512x64x128
  broadcasts_S1x64x128_S512x64x128 : S1x64x128.Broadcasts S512x64x128
  reduces_S512x64x128_S512x64 : S512x64x128.Reduces [2] S512x64
  inb_S512x512_S512x128_0_128 : ∀ a, (![0, 128] : Fin 2 → Nat) a + S512x128.size a ≤ S512x512.size a
  inb_S64x512_S64x128_0_128 : ∀ a, (![0, 128] : Fin 2 → Nat) a + S64x128.size a ≤ S64x512.size a
  inb_S512x512_S512x128_0_256 : ∀ a, (![0, 256] : Fin 2 → Nat) a + S512x128.size a ≤ S512x512.size a
  inb_S64x512_S64x128_0_256 : ∀ a, (![0, 256] : Fin 2 → Nat) a + S64x128.size a ≤ S64x512.size a
  inb_S512x512_S512x128_0_384 : ∀ a, (![0, 384] : Fin 2 → Nat) a + S512x128.size a ≤ S512x512.size a
  inb_S64x512_S64x128_0_384 : ∀ a, (![0, 384] : Fin 2 → Nat) a + S64x128.size a ≤ S64x512.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S8192x64.size a
  hwx0_3 : ∀ i : grid0.Coords, EltTy.bits .f32 = 32 ∨ (Rect.block (s := S8192x64) S512x64.size (cc0_transform_3 i) (hinb0_3 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S64x512 : Shape := ⟨2, ![64, 512]⟩
abbrev S64 : Shape := ⟨1, ![64]⟩
abbrev S8192x1x512 : Shape := ⟨3, ![8192, 1, 512]⟩
abbrev S1x64x512 : Shape := ⟨3, ![1, 64, 512]⟩
abbrev S8192x64x512 : Shape := ⟨3, ![8192, 64, 512]⟩
abbrev S_ : Shape := ⟨0, ![]⟩
abbrev S8192x64 : Shape := ⟨2, ![8192, 64]⟩
abbrev S1x64 : Shape := ⟨2, ![1, 64]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S64x512, .f32⟩
  | .hbm, ⟨2, _⟩ => ⟨S64, .f32⟩
  | .hbm, ⟨3, _⟩ => ⟨S8192x1x512, .f32⟩
  | .hbm, ⟨4, _⟩ => ⟨S1x64x512, .f32⟩
  | .hbm, ⟨5, _⟩ => ⟨S8192x64x512, .f32⟩
  | .hbm, ⟨6, _⟩ => ⟨S8192x64x512, .f32⟩
  | .hbm, ⟨7, _⟩ => ⟨S8192x64x512, .f32⟩
  | .hbm, ⟨8, _⟩ => ⟨S_, .f32⟩
  | .hbm, ⟨9, _⟩ => ⟨S8192x64, .f32⟩
  | .hbm, ⟨10, _⟩ => ⟨S_, .f32⟩
  | .hbm, ⟨11, _⟩ => ⟨S8192x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8192x512_S8192x1x512_0_2 : S8192x512.BroadcastsInDim S8192x1x512 (![0, 2] : Fin 2 → Fin S8192x1x512.rank)
  bcast_S64x512_S1x64x512_1_2 : S64x512.BroadcastsInDim S1x64x512 (![1, 2] : Fin 2 → Fin S1x64x512.rank)
  bcast_S8192x1x512_S8192x64x512_0_1_2 : S8192x1x512.BroadcastsInDim S8192x64x512 (![0, 1, 2] : Fin 3 → Fin S8192x64x512.rank)
  bcast_S1x64x512_S8192x64x512_0_1_2 : S1x64x512.BroadcastsInDim S8192x64x512 (![0, 1, 2] : Fin 3 → Fin S8192x64x512.rank)
  reducesTo_S8192x64x512_S8192x64_d2 : S8192x64x512.ReducesTo [2] S8192x64
  h_S_ : 0 < S_.numel
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)

variable [Facts₀]

class Facts : Prop extends Facts₀ where

variable [Facts]
-- ==== Proof.LibMinReduce.lean ====
/-
  A minimum taken along ONE axis of an array of extended reals, read at a result index.

  Both programs of a kernel-against-reference pair may take such a minimum: the kernel by a
  `vector.multi_reduction <minimumf>` over one axis of a block, the reference by a one-operand
  `stablehlo.reduce` whose body is `stablehlo.minimum`. Each is defined as a fold of the two-argument minimum,
  from a starting value, over the source indices in row-major order. On the extended reals the two-argument
  minimum is `min`, which commutes and associates, so the order of the fold does not matter: at the result index
  `j` each is the fold of `min`, from the starting value, over the coordinates `k` of the dropped axis, of the
  source at `j` with `k` inserted on that axis (`Shape.Reduces.lift`). Stated so, a kernel's minimum over a
  block's rows and a reference's minimum over the whole array's rows are folds over the SAME index set `Fin n`
  and can be compared summand by summand.

  `multiReduction_minimumf_single` is the kernel's side; `hostReduce_minimumf_single` is the reference's. They
  are the counterparts for `min` of the readings of a sum and of a maximum along one axis.
-/
import Idealize.ShloMosaic.PureOps.Ideal.Laws

namespace Cert.LibMinReduce

open Idealize.ShloMosaic

variable {φ : FTy}

/-- A float `vector.multi_reduction <minimumf>` over the one axis `a`, at the exact values: at the result index
    `j` it is the fold of `min`, from the accumulator's value, over the coordinates `k` of axis `a`, of the source
    at `j` with `k` inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a minimum body over the one axis `a`, at the exact values: at
    `j` it is the fold of `min`, from the initial value's one element, over the coordinates `k` of axis `a`, of the
    operand at `j` with `k` inserted. (`h'` is the shape fact the operation carries; `h`, at the same shapes, names
    the inserted index.) -/
theorem hostReduce_minimumf_single {s t u : Shape} {a : Fin s.rank} (x : FVec Ideal s φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end Cert.LibMinReduce
-- ==== Proof.BlockEntry.lean ====
/-
  One entry of the block the kernel body writes, at the exact values.

  At a grid point the body holds a block `X` of 512 rows of `x` (all 512 columns), the whole of `w` as `W` (64 rows)
  and the bias as one row `Bs`. It cuts the 512 columns into four instalments of 128, and for each instalment forms the
  three-axis array `(r, u, k) ↦ X(r, 128c + k) + W(u, 128c + k)`, takes its maximum and its minimum along `k`, and folds
  them into two running values that start at −∞ and +∞. The entry `(r, u)` of the written block is the running maximum
  minus the running minimum plus `Bs(0, u)`.

  This file reads the generated description of that block (`Value.E3`, a function of the eight loaded pieces and the
  bias row) at an index `(r, u)`: each reduction along `k` becomes a fold of `max` (of `min`) over `k : Fin 128` of
  the loaded pieces' entries `P(r, k) + Q(u, k)`.
-/
import proofs.«119551_j8091718386440_1_alg».proof.Proof.Gen.KernelIdeal.Value
import proofs.«119551_j8091718386440_1_alg».proof.Proof.LibMinReduce
import Idealize.ShloMosaic.PureOps.Ideal.Laws
import Idealize.ShloMosaic.Lib.ValueIdx
import Idealize.ShloMosaic.Lib.Pipeline.Value

noncomputable section

namespace Cert.KernelIdeal.Trop

open Cert.KernelIdeal Cert.KernelIdeal.Gen Idealize.ShloMosaic Idealize.ShloMosaic.ValueIdx

/-- The three-axis index over the block index `(r, u)` with `k` on the reduced (last) axis is `(r, u, k)`. -/
theorem lift_last (h : S512x64x128.Reduces [2] S512x64) (r : Fin 512) (u : Fin 64) (k : Fin 128) :
    h.lift (ix2 r u) k = ix3 r u k := by
  funext a
  match a with
  | ⟨0, _⟩ => rfl
  | ⟨1, _⟩ => rfl
  | ⟨2, _⟩ => rfl

/-- A 512 × 128 piece, given a unit middle axis and repeated along it 64 times, read at `(r, u, k)`: the piece at `(r, k)`. -/
theorem rows_spread (P : Vec Ideal S512x128 .f32) (sc : S512x128.ShapeCasts S512x1x128)
    (bc : S512x1x128.Broadcasts S512x64x128) (r : Fin 512) (u : Fin 64) (k : Fin 128) :
    broadcastTo S512x64x128 (shapeCast S512x1x128 P sc) bc (ix3 r u k) = P (ix2 r k) := by
  refine (broadcastTo_apply _ bc (ix3 r u k) (ix3 r (0 : Fin 1) k) (fun a => ?_)).trans ?_
  · match a with
    | ⟨0, _⟩ => show r.val = if (512 : Nat) = 1 then 0 else r.val; rw [if_neg (by decide)]
    | ⟨1, _⟩ => show 0 = if (1 : Nat) = 1 then 0 else u.val; rw [if_pos rfl]
    | ⟨2, _⟩ => show k.val = if (128 : Nat) = 1 then 0 else k.val; rw [if_neg (by decide)]
  · refine shapeCast_apply P sc (ix3 r (0 : Fin 1) k) (ix2 r k) ?_
    rw [Shape.rowMajor_val_two, Shape.rowMajor_val_three]
    show r.val * 128 + k.val = (r.val * 1 + 0) * 128 + k.val
    omega

/-- A 64 × 128 piece, given a unit leading axis and repeated along it 512 times, read at `(r, u, k)`: the piece at `(u, k)`. -/
theorem cols_spread (Q : Vec Ideal S64x128 .f32) (sc : S64x128.ShapeCasts S1x64x128)
    (bc : S1x64x128.Broadcasts S512x64x128) (r : Fin 512) (u : Fin 64) (k : Fin 128) :
    broadcastTo S512x64x128 (shapeCast S1x64x128 Q sc) bc (ix3 r u k) = Q (ix2 u k) := by
  refine (broadcastTo_apply _ bc (ix3 r u k) (ix3 (0 : Fin 1) u k) (fun a => ?_)).trans ?_
  · match a with
    | ⟨0, _⟩ => show 0 = if (1 : Nat) = 1 then 0 else r.val; rw [if_pos rfl]
    | ⟨1, _⟩ => show u.val = if (64 : Nat) = 1 then 0 else u.val; rw [if_neg (by decide)]
    | ⟨2, _⟩ => show k.val = if (128 : Nat) = 1 then 0 else k.val; rw [if_neg (by decide)]
  · refine shapeCast_apply Q sc (ix3 (0 : Fin 1) u k) (ix2 u k) ?_
    rw [Shape.rowMajor_val_two, Shape.rowMajor_val_three]
    show u.val * 128 + k.val = (0 * 64 + u.val) * 128 + k.val
    omega

/-- A maximum along the last axis of any 512 × 64 × 128 array, at `(r, u)`: the fold of `max`, from the
    accumulator's value, over `k` of the array at `(r, u, k)`. -/
theorem max_last (src : FVec Ideal S512x64x128 .f32)
    (h : S512x64x128.Reduces [2] S512x64) (hφ : FKind.Formats .f32) (hacc : (0xFF800000#32 : BitVec 32) = 0xFF800000#32)
    (r : Fin 512) (u : Fin 64) :
    multiReduction (F := Ideal) .maximumf [2] S512x64 src 0xFF800000#32 h hφ hacc (ix2 r u)
      = (Finset.univ : Finset (Fin 128)).fold max (FloatOps.ofBits (F := Ideal) .f32 0xFF800000#32) (fun k => src (ix3 r u k)) := by
  rw [Ideal.multiReduction_maximumf_single (φ := .f32) (s := S512x64x128) (t := S512x64) (a := 2) src 0xFF800000#32 h hφ hacc (ix2 r u),
    show (src ∘ h.lift (ix2 r u)) = (fun k : Fin 128 => src (ix3 r u k)) from funext fun k => congrArg src (lift_last h r u k)]
  rfl

/-- The same for a minimum. -/
theorem min_last (src : FVec Ideal S512x64x128 .f32)
    (h : S512x64x128.Reduces [2] S512x64) (hφ : FKind.Formats .f32) (hacc : (0x7F800000#32 : BitVec 32) = 0x7F800000#32)
    (r : Fin 512) (u : Fin 64) :
    multiReduction (F := Ideal) .minimumf [2] S512x64 src 0x7F800000#32 h hφ hacc (ix2 r u)
      = (Finset.univ : Finset (Fin 128)).fold min (FloatOps.ofBits (F := Ideal) .f32 0x7F800000#32) (fun k => src (ix3 r u k)) := by
  rw [Cert.LibMinReduce.multiReduction_minimumf_single (φ := .f32) (s := S512x64x128) (t := S512x64) (a := 2) src 0x7F800000#32 h hφ hacc (ix2 r u),
    show (src ∘ h.lift (ix2 r u)) = (fun k : Fin 128 => src (ix3 r u k)) from funext fun k => congrArg src (lift_last h r u k)]
  rfl

/-- One instalment's three-axis array of sums at `(r, u, k)`: `P(r, k) + Q(u, k)`. -/
theorem sums_at (P : Vec Ideal S512x128 .f32) (Q : Vec Ideal S64x128 .f32)
    (sc1 : S512x128.ShapeCasts S512x1x128) (bc1 : S512x1x128.Broadcasts S512x64x128)
    (sc2 : S64x128.ShapeCasts S1x64x128) (bc2 : S1x64x128.Broadcasts S512x64x128) (r : Fin 512) (u : Fin 64) (k : Fin 128) :
    (addf (broadcastTo S512x64x128 (shapeCast S512x1x128 P sc1) bc1) (broadcastTo S512x64x128 (shapeCast S1x64x128 Q sc2) bc2) :
        FVec Ideal S512x64x128 .f32) (ix3 r u k)
      = P (ix2 r k) + Q (ix2 u k) := by
  rw [addf_apply, rows_spread, cols_spread]

/-- The maximum along `k` of one instalment's sums, at `(r, u)`: the fold of `max`, from the accumulator's
    value, over `k` of `P(r, k) + Q(u, k)`. -/
theorem max_instalment (P : Vec Ideal S512x128 .f32) (Q : Vec Ideal S64x128 .f32)
    (sc1 : S512x128.ShapeCasts S512x1x128) (bc1 : S512x1x128.Broadcasts S512x64x128)
    (sc2 : S64x128.ShapeCasts S1x64x128) (bc2 : S1x64x128.Broadcasts S512x64x128)
    (h : S512x64x128.Reduces [2] S512x64) (hφ : FKind.Formats .f32) (hacc : (0xFF800000#32 : BitVec 32) = 0xFF800000#32)
    (r : Fin 512) (u : Fin 64) :
    multiReduction (F := Ideal) .maximumf [2] S512x64
        (addf (broadcastTo S512x64x128 (shapeCast S512x1x128 P sc1) bc1) (broadcastTo S512x64x128 (shapeCast S1x64x128 Q sc2) bc2))
        0xFF800000#32 h hφ hacc (ix2 r u)
      = (Finset.univ : Finset (Fin 128)).fold max (FloatOps.ofBits (F := Ideal) .f32 0xFF800000#32) (fun k => P (ix2 r k) + Q (ix2 u k)) := by
  rw [max_last]
  simp only [sums_at]

/-- The minimum along `k` of one instalment's sums, at `(r, u)`: the fold of `min`, from the accumulator's
    value, over `k` of `P(r, k) + Q(u, k)`. -/
theorem min_instalment (P : Vec Ideal S512x128 .f32) (Q : Vec Ideal S64x128 .f32)
    (sc1 : S512x128.ShapeCasts S512x1x128) (bc1 : S512x1x128.Broadcasts S512x64x128)
    (sc2 : S64x128.ShapeCasts S1x64x128) (bc2 : S1x64x128.Broadcasts S512x64x128)
    (h : S512x64x128.Reduces [2] S512x64) (hφ : FKind.Formats .f32) (hacc : (0x7F800000#32 : BitVec 32) = 0x7F800000#32)
    (r : Fin 512) (u : Fin 64) :
    multiReduction (F := Ideal) .minimumf [2] S512x64
        (addf (broadcastTo S512x64x128 (shapeCast S512x1x128 P sc1) bc1) (broadcastTo S512x64x128 (shapeCast S1x64x128 Q sc2) bc2))
        0x7F800000#32 h hφ hacc (ix2 r u)
      = (Finset.univ : Finset (Fin 128)).fold min (FloatOps.ofBits (F := Ideal) .f32 0x7F800000#32) (fun k => P (ix2 r k) + Q (ix2 u k)) := by
  rw [min_last]
  simp only [sums_at]

end Cert.KernelIdeal.Trop

end
-- ==== Proof.Instalments.lean ====
/-
  A maximum (or minimum) taken in four instalments.

  Let `f` be a family of elements of a linear order indexed by a finite type `ι`, and let four maps
  `e0 … e3 : κ → ι` from a second finite type jointly reach every index of `ι`. Fold `max` over each instalment
  `f ∘ e_c` from a starting value `b`, and combine the four results one after the other, again starting from `b`:
  the outcome is the fold of `max` over the whole family from `b`. The starting value may be anything: `max` is
  idempotent, so its five occurrences on the left count once. Both sides are characterised by their upper bounds
  (an element bounds a fold of `max` iff it bounds the starting value and every member), and the two lists of
  members are the same because the instalments cover `ι`. The statement for `min` is the order dual.
-/
import Mathlib.Data.Finset.Fold
import Mathlib.Data.Fintype.Basic
import Mathlib.Order.MinMax

namespace Cert.Instalments

variable {α ι κ : Type} [LinearOrder α] [Fintype ι] [Fintype κ]

/-- Four instalments that cover the index set: the running maximum over them is the maximum over the set. -/
theorem max_four (b : α) (f : ι → α) (e0 e1 e2 e3 : κ → ι)
    (hcov : ∀ d : ι, ∃ k : κ, e0 k = d ∨ e1 k = d ∨ e2 k = d ∨ e3 k = d) :
    max (max (max (max b (Finset.univ.fold max b (fun k => f (e0 k)))) (Finset.univ.fold max b (fun k => f (e1 k))))
        (Finset.univ.fold max b (fun k => f (e2 k)))) (Finset.univ.fold max b (fun k => f (e3 k)))
      = Finset.univ.fold max b f := by
  refine eq_of_forall_ge_iff fun c => ?_
  simp only [max_le_iff, Finset.fold_max_le, Finset.mem_univ, true_implies]
  constructor
  · rintro ⟨⟨⟨⟨hb, -, h0⟩, -, h1⟩, -, h2⟩, -, h3⟩
    refine ⟨hb, fun d => ?_⟩
    obtain ⟨k, rfl | rfl | rfl | rfl⟩ := hcov d
    exacts [h0 k, h1 k, h2 k, h3 k]
  · rintro ⟨hb, h⟩
    exact ⟨⟨⟨⟨hb, hb, fun k => h _⟩, hb, fun k => h _⟩, hb, fun k => h _⟩, hb, fun k => h _⟩

/-- The same for the running minimum. -/
theorem min_four (b : α) (f : ι → α) (e0 e1 e2 e3 : κ → ι)
    (hcov : ∀ d : ι, ∃ k : κ, e0 k = d ∨ e1 k = d ∨ e2 k = d ∨ e3 k = d) :
    min (min (min (min b (Finset.univ.fold min b (fun k => f (e0 k)))) (Finset.univ.fold min b (fun k => f (e1 k))))
        (Finset.univ.fold min b (fun k => f (e2 k)))) (Finset.univ.fold min b (fun k => f (e3 k)))
      = Finset.univ.fold min b f := by
  refine eq_of_forall_le_iff fun c => ?_
  simp only [le_min_iff, Finset.le_fold_min, Finset.mem_univ, true_implies]
  constructor
  · rintro ⟨⟨⟨⟨hb, -, h0⟩, -, h1⟩, -, h2⟩, -, h3⟩
    refine ⟨hb, fun d => ?_⟩
    obtain ⟨k, rfl | rfl | rfl | rfl⟩ := hcov d
    exacts [h0 k, h1 k, h2 k, h3 k]
  · rintro ⟨hb, h⟩
    exact ⟨⟨⟨⟨hb, hb, fun k => h _⟩, hb, fun k => h _⟩, hb, fun k => h _⟩, hb, fun k => h _⟩

end Cert.Instalments
-- ==== Proof.BodyBlock.lean ====
/-
  The entry `(r, u)` of the block the kernel body leaves, as a function of the three blocks the body is given.

  The body is given `X` (512 rows of `x`, 512 columns), `W` (all of `w`: 64 rows, 512 columns) and `Bs` (the bias as
  one row). It loads columns `128c … 128c + 127` of `X` and of `W` for `c = 0, 1, 2, 3`; the generated description of
  the written block, read at `(r, u)`, is the running maximum minus the running minimum over these four instalments
  plus `Bs(0, u)`. Column `d` of the 512 is column `d mod 128` of instalment `d / 128`, so the four instalments cover the
  512 columns, and a running maximum (minimum) over instalments that cover is the maximum (minimum) over all columns:
  the entry is `max_d (X(r, d) + W(u, d)) − min_d (X(r, d) + W(u, d)) + Bs(0, u)`, the folds starting at the kernel's
  two accumulator constants.
-/
import proofs.«119551_j8091718386440_1_alg».proof.Proof.BlockEntry
import proofs.«119551_j8091718386440_1_alg».proof.Proof.Instalments

noncomputable section

namespace Cert.KernelIdeal.Trop

open Cert.KernelIdeal Cert.KernelIdeal.Gen Idealize.ShloMosaic Idealize.ShloMosaic.ValueIdx

/-- Column `k` of instalment `c` is column `128c + k` of the 512. -/
def col (c : Fin 4) (k : Fin 128) : Fin 512 := ⟨128 * c.val + k.val, by have := c.isLt; have := k.isLt; omega⟩

/-- Every one of the 512 columns is a column of one of the four instalments. -/
theorem col_cover (d : Fin 512) : ∃ k : Fin 128, col 0 k = d ∨ col 1 k = d ∨ col 2 k = d ∨ col 3 k = d := by
  have hd := d.isLt
  refine ⟨⟨d.val % 128, Nat.mod_lt _ (by decide)⟩, ?_⟩
  rcases (show d.val / 128 = 0 ∨ d.val / 128 = 1 ∨ d.val / 128 = 2 ∨ d.val / 128 = 3 by omega) with h | h | h | h
  · exact .inl (Fin.ext (by show 128 * 0 + d.val % 128 = d.val; omega))
  · exact .inr (.inl (Fin.ext (by show 128 * 1 + d.val % 128 = d.val; omega)))
  · exact .inr (.inr (.inl (Fin.ext (by show 128 * 2 + d.val % 128 = d.val; omega))))
  · exact .inr (.inr (.inr (Fin.ext (by show 128 * 3 + d.val % 128 = d.val; omega))))

/-- A load of 128 consecutive columns of the 512 × 512 block from column `o`, at `(r, k)`: the block at `(r, o + k)`. -/
theorem ld_rows (X : Vec Ideal S512x512 .f32) (o : Nat) (inb : ∀ a, (![0, o] : Fin 2 → Nat) a + S512x128.size a ≤ S512x512.size a)
    (r : Fin 512) (k : Fin 128) (d : Fin 512) (hd : d.val = o + k.val) :
    View.ld X (Rect.unit (s := S512x512) ![0, o] S512x128.size inb) (ix2 r k) = X (ix2 r d) := by
  show X _ = X _
  refine congrArg X (funext fun a => Fin.ext ?_)
  match a with
  | ⟨0, _⟩ => show 0 + 1 * r.val = r.val; omega
  | ⟨1, _⟩ => show o + 1 * k.val = d.val; omega

/-- The same for the 64 × 512 block. -/
theorem ld_cols (W : Vec Ideal S64x512 .f32) (o : Nat) (inb : ∀ a, (![0, o] : Fin 2 → Nat) a + S64x128.size a ≤ S64x512.size a)
    (u : Fin 64) (k : Fin 128) (d : Fin 512) (hd : d.val = o + k.val) :
    View.ld W (Rect.unit (s := S64x512) ![0, o] S64x128.size inb) (ix2 u k) = W (ix2 u d) := by
  show W _ = W _
  refine congrArg W (funext fun a => Fin.ext ?_)
  match a with
  | ⟨0, _⟩ => show 0 + 1 * u.val = u.val; omega
  | ⟨1, _⟩ => show o + 1 * k.val = d.val; omega

theorem ldX0 (X : Vec Ideal S512x512 .f32) (r : Fin 512) (k : Fin 128) : View.ld X r0_0 (ix2 r k) = X (ix2 r (col 0 k)) :=
  ld_rows X 0 _ r k _ (by show 128 * 0 + k.val = 0 + k.val; omega)
theorem ldX1 (X : Vec Ideal S512x512 .f32) (r : Fin 512) (k : Fin 128) : View.ld X r0_2 (ix2 r k) = X (ix2 r (col 1 k)) :=
  ld_rows X 128 _ r k _ (by show 128 * 1 + k.val = 128 + k.val; omega)
theorem ldX2 (X : Vec Ideal S512x512 .f32) (r : Fin 512) (k : Fin 128) : View.ld X r0_4 (ix2 r k) = X (ix2 r (col 2 k)) :=
  ld_rows X 256 _ r k _ (by show 128 * 2 + k.val = 256 + k.val; omega)
theorem ldX3 (X : Vec Ideal S512x512 .f32) (r : Fin 512) (k : Fin 128) : View.ld X r0_6 (ix2 r k) = X (ix2 r (col 3 k)) :=
  ld_rows X 384 _ r k _ (by show 128 * 3 + k.val = 384 + k.val; omega)
theorem ldW0 (W : Vec Ideal S64x512 .f32) (u : Fin 64) (k : Fin 128) : View.ld W r0_1 (ix2 u k) = W (ix2 u (col 0 k)) :=
  ld_cols W 0 _ u k _ (by show 128 * 0 + k.val = 0 + k.val; omega)
theorem ldW1 (W : Vec Ideal S64x512 .f32) (u : Fin 64) (k : Fin 128) : View.ld W r0_3 (ix2 u k) = W (ix2 u (col 1 k)) :=
  ld_cols W 128 _ u k _ (by show 128 * 1 + k.val = 128 + k.val; omega)
theorem ldW2 (W : Vec Ideal S64x512 .f32) (u : Fin 64) (k : Fin 128) : View.ld W r0_5 (ix2 u k) = W (ix2 u (col 2 k)) :=
  ld_cols W 256 _ u k _ (by show 128 * 2 + k.val = 256 + k.val; omega)
theorem ldW3 (W : Vec Ideal S64x512 .f32) (u : Fin 64) (k : Fin 128) : View.ld W r0_7 (ix2 u k) = W (ix2 u (col 3 k)) :=
  ld_cols W 384 _ u k _ (by show 128 * 3 + k.val = 384 + k.val; omega)

/-- The bias row, loaded whole. -/
theorem ldB (Bs : Vec Ideal S1x64 .f32) : View.ld Bs r0_8 = Bs :=
  View.ld_unit_zero (S := S1x64) (funext fun a => by fin_cases a <;> rfl) _ Bs

/-- The generated description reads each reduced value at the block index rebuilt from its coordinates: that is the index. -/
theorem reidx (r : Fin 512) (u : Fin 64) :
    Value.ix3_0 (ix2 r u) = ix2 r u ∧ Value.ix3_1 (ix2 r u) = ix2 r u ∧ Value.ix3_2 (ix2 r u) = ix2 r u ∧ Value.ix3_3 (ix2 r u) = ix2 r u
    ∧ Value.ix3_4 (ix2 r u) = ix2 r u ∧ Value.ix3_5 (ix2 r u) = ix2 r u ∧ Value.ix3_6 (ix2 r u) = ix2 r u ∧ Value.ix3_7 (ix2 r u) = ix2 r u
    ∧ Value.ix3_8 (ix2 r u) = ix2 (0 : Fin 1) u := by
  refine ⟨?_, ?_, ?_, ?_, ?_, ?_, ?_, ?_, ?_⟩ <;> funext a <;> match a with | ⟨0, _⟩ => rfl | ⟨1, _⟩ => rfl

/-- The generated description of the written block at `(r, u)`, for ANY eight loaded pieces `P0 … P7` (rows' and
    columns' instalments alternating) and bias row `P8`: the running maximum over the four instalments of
    `max_k (P_{2c}(r, k) + P_{2c+1}(u, k))`, minus the running minimum, plus `P8(0, u)`. -/
theorem described_entry (P0 : Vec Ideal S512x128 .f32) (P1 : Vec Ideal S64x128 .f32) (P2 : Vec Ideal S512x128 .f32) (P3 : Vec Ideal S64x128 .f32)
    (P4 : Vec Ideal S512x128 .f32) (P5 : Vec Ideal S64x128 .f32) (P6 : Vec Ideal S512x128 .f32) (P7 : Vec Ideal S64x128 .f32)
    (P8 : Vec Ideal S1x64 .f32) (r : Fin 512) (u : Fin 64) :
    Value.E3 (F := Ideal) P0 P1 P2 P3 P4 P5 P6 P7 P8 (ix2 r u)
      = (max (max (max (max (FloatOps.ofBits (F := Ideal) .f32 0xFF800000#32)
            ((Finset.univ : Finset (Fin 128)).fold max (FloatOps.ofBits (F := Ideal) .f32 0xFF800000#32) (fun k => P0 (ix2 r k) + P1 (ix2 u k))))
            ((Finset.univ : Finset (Fin 128)).fold max (FloatOps.ofBits (F := Ideal) .f32 0xFF800000#32) (fun k => P2 (ix2 r k) + P3 (ix2 u k))))
            ((Finset.univ : Finset (Fin 128)).fold max (FloatOps.ofBits (F := Ideal) .f32 0xFF800000#32) (fun k => P4 (ix2 r k) + P5 (ix2 u k))))
            ((Finset.univ : Finset (Fin 128)).fold max (FloatOps.ofBits (F := Ideal) .f32 0xFF800000#32) (fun k => P6 (ix2 r k) + P7 (ix2 u k)))
          - min (min (min (min (FloatOps.ofBits (F := Ideal) .f32 0x7F800000#32)
            ((Finset.univ : Finset (Fin 128)).fold min (FloatOps.ofBits (F := Ideal) .f32 0x7F800000#32) (fun k => P0 (ix2 r k) + P1 (ix2 u k))))
            ((Finset.univ : Finset (Fin 128)).fold min (FloatOps.ofBits (F := Ideal) .f32 0x7F800000#32) (fun k => P2 (ix2 r k) + P3 (ix2 u k))))
            ((Finset.univ : Finset (Fin 128)).fold min (FloatOps.ofBits (F := Ideal) .f32 0x7F800000#32) (fun k => P4 (ix2 r k) + P5 (ix2 u k))))
            ((Finset.univ : Finset (Fin 128)).fold min (FloatOps.ofBits (F := Ideal) .f32 0x7F800000#32) (fun k => P6 (ix2 r k) + P7 (ix2 u k))))
        + P8 (ix2 (0 : Fin 1) u) := by
  obtain ⟨i0, i1, i2, i3, i4, i5, i6, i7, i8⟩ := reidx r u
  dsimp only [Value.E3]
  rw [i0, i1, i2, i3, i4, i5, i6, i7, i8]
  rw [max_instalment P0 P1, max_instalment P2 P3, max_instalment P4 P5, max_instalment P6 P7,
    min_instalment P0 P1, min_instalment P2 P3, min_instalment P4 P5, min_instalment P6 P7]
  rfl

/-- THE ENTRY: the maximum over the 512 columns of `X(r, d) + W(u, d)`, minus the minimum, plus the bias. -/
theorem body_entry (X : Vec Ideal S512x512 .f32) (W : Vec Ideal S64x512 .f32) (Bs : Vec Ideal S1x64 .f32) (r : Fin 512) (u : Fin 64) :
    out0_3 (F := Ideal) X W Bs (ix2 r u)
      = ((Finset.univ : Finset (Fin 512)).fold max (FloatOps.ofBits (F := Ideal) .f32 0xFF800000#32) (fun d => X (ix2 r d) + W (ix2 u d))
          - (Finset.univ : Finset (Fin 512)).fold min (FloatOps.ofBits (F := Ideal) .f32 0x7F800000#32) (fun d => X (ix2 r d) + W (ix2 u d)))
        + Bs (ix2 (0 : Fin 1) u) := by
  unfold out0_3
  rw [Value.canon3_eq, described_entry]
  have h0 : (fun k : Fin 128 => View.ld X r0_0 (ix2 r k) + View.ld W r0_1 (ix2 u k))
      = (fun k => (fun d : Fin 512 => X (ix2 r d) + W (ix2 u d)) (col 0 k)) := funext fun k => by rw [ldX0, ldW0]
  have h1 : (fun k : Fin 128 => View.ld X r0_2 (ix2 r k) + View.ld W r0_3 (ix2 u k))
      = (fun k => (fun d : Fin 512 => X (ix2 r d) + W (ix2 u d)) (col 1 k)) := funext fun k => by rw [ldX1, ldW1]
  have h2 : (fun k : Fin 128 => View.ld X r0_4 (ix2 r k) + View.ld W r0_5 (ix2 u k))
      = (fun k => (fun d : Fin 512 => X (ix2 r d) + W (ix2 u d)) (col 2 k)) := funext fun k => by rw [ldX2, ldW2]
  have h3 : (fun k : Fin 128 => View.ld X r0_6 (ix2 r k) + View.ld W r0_7 (ix2 u k))
      = (fun k => (fun d : Fin 512 => X (ix2 r d) + W (ix2 u d)) (col 3 k)) := funext fun k => by rw [ldX3, ldW3]
  rw [h0, h1, h2, h3, ldB]
  rw [← Instalments.max_four (FloatOps.ofBits (F := Ideal) .f32 0xFF800000#32) (fun d : Fin 512 => X (ix2 r d) + W (ix2 u d))
      (col 0) (col 1) (col 2) (col 3) col_cover,
    ← Instalments.min_four (FloatOps.ofBits (F := Ideal) .f32 0x7F800000#32) (fun d : Fin 512 => X (ix2 r d) + W (ix2 u d))
      (col 0) (col 1) (col 2) (col 3) col_cover]

end Cert.KernelIdeal.Trop

end
-- ==== Proof.Spread.lean ====
/-
  The function both programs compute.

  For `x` of shape 8192 × 512, `w` of shape 64 × 512 and `bias` of length 64, all over the extended reals:

      spread x w bias (b, u) = max_d (x(b, d) + w(u, d)) − min_d (x(b, d) + w(u, d)) + bias(u),

  the maximum and the minimum over the 512 columns `d`, taken as folds of `max` from the value of the f32 pattern of −∞
  and of `min` from that of +∞ (the constants both programs start from; they are never evaluated here, being the same
  on the two sides). It is the spread, in the max-plus sense, of row `b` of `x` against row `u` of `w`, shifted by the
  bias. The kernel reaches it in four instalments of 128 columns per block of 512 rows; the reference in one reduction
  over the whole third axis of the 8192 × 64 × 512 array of sums.
-/
import Idealize.ShloMosaic.PureOps.Ideal
import Idealize.ShloMosaic.Lib.ValueIdx

noncomputable section

namespace Cert.Trop

open Idealize.ShloMosaic Idealize.ShloMosaic.ValueIdx

/-- Row `b` of `x` plus row `u` of `w`, column by column. -/
def pairSums (x : (⟨2, ![8192, 512]⟩ : Shape).Idx → EReal) (w : (⟨2, ![64, 512]⟩ : Shape).Idx → EReal) (b : Fin 8192) (u : Fin 64) :
    Fin 512 → EReal :=
  fun d => x (ix2 b d) + w (ix2 u d)

/-- The largest column sum minus the smallest, plus the bias of `u`. -/
def spreadAt (x : (⟨2, ![8192, 512]⟩ : Shape).Idx → EReal) (w : (⟨2, ![64, 512]⟩ : Shape).Idx → EReal)
    (bias : (⟨1, ![64]⟩ : Shape).Idx → EReal) (b : Fin 8192) (u : Fin 64) : EReal :=
  ((Finset.univ : Finset (Fin 512)).fold max (FloatOps.ofBits (F := Ideal) .f32 0xFF800000#32) (pairSums x w b u)
      - (Finset.univ : Finset (Fin 512)).fold min (FloatOps.ofBits (F := Ideal) .f32 0x7F800000#32) (pairSums x w b u))
    + bias (ix1 u)

/-- The whole 8192 × 64 result. -/
def spread (x : (⟨2, ![8192, 512]⟩ : Shape).Idx → EReal) (w : (⟨2, ![64, 512]⟩ : Shape).Idx → EReal)
    (bias : (⟨1, ![64]⟩ : Shape).Idx → EReal) : (⟨2, ![8192, 64]⟩ : Shape).Idx → EReal :=
  fun i => spreadAt x w bias ⟨(i 0).val, idx2_lt0 i⟩ ⟨(i 1).val, idx2_lt1 i⟩

/-- At an index given by its coordinates. -/
theorem spread_ix2 (x : (⟨2, ![8192, 512]⟩ : Shape).Idx → EReal) (w : (⟨2, ![64, 512]⟩ : Shape).Idx → EReal)
    (bias : (⟨1, ![64]⟩ : Shape).Idx → EReal) (b : Fin 8192) (u : Fin 64) :
    spread x w bias (ix2 b u) = spreadAt x w bias b u := rfl

end Cert.Trop

end
-- ==== Proof.KernelValue.lean ====
/-
  The kernel computes the spread.

  The grid has 16 points; point `t` is given rows `512 t … 512 t + 511` of `x` (all 512 columns), the whole of `w`, the
  bias reshaped to one row, and writes rows `512 t … 512 t + 511` of the 8192 × 64 result. By the entry lemma of the
  body, entry `(r, u)` of what point `t` writes is the spread of row `512 t + r` of `x` against row `u` of `w`, plus
  `bias(u)`: block `t` of the spread of the argument arrays. The 16 row blocks tile the result, so after the run the
  result array is the spread.
-/
import proofs.«119551_j8091718386440_1_alg».proof.Proof.BodyBlock
import proofs.«119551_j8091718386440_1_alg».proof.Proof.Spread
import Idealize.ShloMosaic.Lib.StableHlo.Run

noncomputable section

namespace Cert.KernelIdeal.Trop

open Cert.KernelIdeal Cert.KernelIdeal.Gen Idealize.ShloMosaic Idealize.ShloMosaic.TcCoe Idealize.SL.Sem
open Idealize.ShloMosaic.ValueIdx Cert.Trop
open Idealize.ShloMosaic.Pipeline (Dat)

variable (m : (ℓ : Loc nD τ sig) → Buf (Elt Ideal) ℓ) (ρ : Dev nD → PrngReg)

/-- Point `t`'s block of `x`: 512 rows, all columns. -/
abbrev xblk (c : Dev nD) (t : Fin cfg0.N) : Vec Ideal S512x512 .f32 := iblk m c 0 t
/-- Point `t`'s block of `w`: all of it. -/
abbrev wblk (c : Dev nD) (t : Fin cfg0.N) : Vec Ideal S64x512 .f32 := iblk m c 1 t
/-- Point `t`'s block of the bias row: all of it. -/
abbrev bblk (c : Dev nD) (t : Fin cfg0.N) : Vec Ideal S1x64 .f32 := iblk m c 2 t

/-- The body's entry lemma at any index of the written block. -/
theorem body_entry_at (X : Vec Ideal S512x512 .f32) (W : Vec Ideal S64x512 .f32) (Bs : Vec Ideal S1x64 .f32) (y : S512x64.Idx) :
    out0_3 (F := Ideal) X W Bs y
      = ((Finset.univ : Finset (Fin 512)).fold max (FloatOps.ofBits (F := Ideal) .f32 0xFF800000#32)
            (fun d => X (ix2 (⟨(y 0).val, idx2_lt0 y⟩ : Fin 512) d) + W (ix2 (⟨(y 1).val, idx2_lt1 y⟩ : Fin 64) d))
          - (Finset.univ : Finset (Fin 512)).fold min (FloatOps.ofBits (F := Ideal) .f32 0x7F800000#32)
            (fun d => X (ix2 (⟨(y 0).val, idx2_lt0 y⟩ : Fin 512) d) + W (ix2 (⟨(y 1).val, idx2_lt1 y⟩ : Fin 64) d)))
        + Bs (ix2 (0 : Fin 1) (⟨(y 1).val, idx2_lt1 y⟩ : Fin 64)) := by
  obtain ⟨r, u, rfl⟩ : ∃ (r : Fin 512) (u : Fin 64), y = ix2 r u := ⟨y 0, y 1, eq_ix2 y⟩
  exact body_entry X W Bs r u

/-- The printed index maps over the grid: the windows of `x` and of the result move down one block of rows per point;
    those of `w` and of the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of `x` at `(r, d)` is `x` at `(512 t + r, d)`. -/
theorem xblk_apply (c : Dev nD) (t : Fin cfg0.N) (r : Fin 512) (d : Fin 512) (b : Fin 8192) (hb : b.val = 512 * t.val + r.val) :
    xblk m c t (ix2 r d) = (m ((c : Thread nD τ).loc main_arg0) : S8192x512.Idx → EReal) (ix2 b d) := by
  obtain ⟨e00, e01, -⟩ := idx_facts t
  rw [← V_main_arg0 m c]
  unfold xblk iblk
  rw [View.read_apply]
  show V m c main_arg0 _ = V m c main_arg0 _
  refine congrArg (V m c main_arg0) (funext fun a => Fin.ext ?_)
  match a with
  | ⟨0, _⟩ => show win0_0.index t (0 : Fin 2) * 512 + 1 * r.val = b.val; rw [e00, hb]; omega
  | ⟨1, _⟩ => show win0_0.index t (1 : Fin 2) * 512 + 1 * d.val = d.val; rw [e01]; omega

/-- Every point's block of `w` is `w`. -/
theorem wblk_apply (c : Dev nD) (t : Fin cfg0.N) (u : Fin 64) (d : Fin 512) :
    wblk m c t (ix2 u d) = (m ((c : Thread nD τ).loc main_arg1) : S64x512.Idx → EReal) (ix2 u d) := by
  obtain ⟨-, -, e10, e11, -⟩ := idx_facts t
  rw [← V_main_arg1 m c]
  unfold wblk iblk
  rw [View.read_apply]
  show V m c main_arg1 _ = V m c main_arg1 _
  refine congrArg (V m c main_arg1) (funext fun a => Fin.ext ?_)
  match a with
  | ⟨0, _⟩ => show win0_1.index t (0 : Fin 2) * 64 + 1 * u.val = u.val; rw [e10]; omega
  | ⟨1, _⟩ => show win0_1.index t (1 : Fin 2) * 512 + 1 * d.val = d.val; rw [e11]; omega

/-- The one-row array the region finds the bias in: the bias, reshaped. -/
theorem bias_row (c : Dev nD) :
    (V m c main_v0 : S1x64.Idx → Elt Ideal .f32) = shapeCast S1x64 (m ((c : Thread nD τ).loc main_arg2)) shapeCasts_S64_S1x64 := by
  dsimp only [Gen.V, Gen.hostOps0]; after_results; rfl

/-- Every point's block of the bias row at `(0, u)` is `bias(u)`. -/
theorem bblk_apply (c : Dev nD) (t : Fin cfg0.N) (u : Fin 64) :
    bblk m c t (ix2 (0 : Fin 1) u) = (m ((c : Thread nD τ).loc main_arg2) : S64.Idx → EReal) (ix1 u) := by
  obtain ⟨-, -, -, -, e20, e21, -⟩ := idx_facts t
  unfold bblk iblk
  rw [View.read_apply]
  show V m c main_v0 _ = _
  rw [bias_row]
  refine shapeCast_apply _ _ _ (ix1 u) ?_
  rw [Shape.rowMajor_val_one, Shape.rowMajor_val_two]
  show u.val = (win0_2.index t (0 : Fin 2) * 1 + 1 * 0) * 64 + (win0_2.index t (1 : Fin 2) * 64 + 1 * u.val)
  rw [e20, e21]; omega

/-- The result array: the spread of the three arguments as launched. -/
abbrev result (c : Dev nD) : Buf (Elt Ideal) ((c : Thread nD τ).loc main_v1) :=
  spread (m ((c : Thread nD τ).loc main_arg0)) (m ((c : Thread nD τ).loc main_arg1)) (m ((c : Thread nD τ).loc main_arg2))

/-- WHAT POINT `t` WRITES BACK is block `t` of the spread. -/
theorem flushed_eq (c : Dev nD) (t : Fin cfg0.N) :
    (dats m 0 c).flushed 3 t = ((cfg0.win 3).blk t).view.read (Elt Ideal) (result m c) := by
  rw [Value.flushed3]
  funext y
  have hy0 : (y 0).val < 512 := (y 0).isLt
  have hy1 : (y 1).val < 64 := (y 1).isLt
  obtain ⟨-, -, -, -, -, -, e30, e31⟩ := idx_facts t
  have ht : t.val < 16 := lt_of_lt_of_eq t.isLt N_0
  show out0_3 (F := Ideal) (iblk m c 0 t) (iblk m c 1 t) (iblk m c 2 t) y = result m c (((cfg0.win 3).blk t).view.emb y)
  refine (body_entry_at _ _ _ y).trans ?_
  have hemb : ((cfg0.win 3).blk t).view.emb y
      = ix2 (⟨512 * t.val + (y 0).val, by omega⟩ : Fin 8192) (⟨(y 1).val, hy1⟩ : Fin 64) := by
    funext a; apply Fin.ext
    match a with
    | ⟨0, _⟩ => show win0_3.index t (0 : Fin 2) * 512 + 1 * (y 0).val = 512 * t.val + (y 0).val; rw [e30]; omega
    | ⟨1, _⟩ => show win0_3.index t (1 : Fin 2) * 64 + 1 * (y 1).val = (y 1).val; rw [e31]; omega
  rw [hemb]
  have hf : (fun d : Fin 512 => xblk m c t (ix2 (⟨(y 0).val, hy0⟩ : Fin 512) d) + wblk m c t (ix2 (⟨(y 1).val, hy1⟩ : Fin 64) d))
      = pairSums (m ((c : Thread nD τ).loc main_arg0)) (m ((c : Thread nD τ).loc main_arg1))
          ⟨512 * t.val + (y 0).val, by omega⟩ ⟨(y 1).val, hy1⟩ :=
    funext fun d => by
      rw [xblk_apply m c t ⟨(y 0).val, hy0⟩ d ⟨512 * t.val + (y 0).val, by omega⟩ rfl, wblk_apply m c t ⟨(y 1).val, hy1⟩ d]
      rfl
  exact congrArg₂ (· + ·)
    (congrArg₂ (· - ·)
      (congrArg (fun f : Fin 512 → EReal => (Finset.univ : Finset (Fin 512)).fold max (FloatOps.ofBits (F := Ideal) .f32 0xFF800000#32) f) hf)
      (congrArg (fun f : Fin 512 → EReal => (Finset.univ : Finset (Fin 512)).fold min (FloatOps.ofBits (F := Ideal) .f32 0x7F800000#32) f) hf))
    (bblk_apply m c t ⟨(y 1).val, hy1⟩)

/-- An index of the result is in point `t`'s block iff its row is among the block's 512 rows. -/
theorem mem_blk (t : Fin cfg0.N) (i : S8192x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v1).slice (win0_3.rect t)).set ↔ _
  rw [View.set_slice_whole, Rect.mem_set_unit]
  exact Iff.rfl

/-- The 16 row blocks tile the result: row `b` lies in block `b / 512`. -/
theorem covered (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  obtain ⟨t, ht⟩ : ∃ t : Fin cfg0.N, t.val = (i 0).val / 512 := ⟨⟨(i 0).val / 512, by rw [show cfg0.N = 16 from N_0]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e30, ht]; omega
  | ⟨1, _⟩ =>
    show win0_3.index t (1 : Fin 2) * 64 ≤ (i 1).val ∧ (i 1).val < win0_3.index t (1 : Fin 2) * 64 + 64
    rw [e31]; omega

/-- After the run the result array is the spread of the arguments. -/
theorem final (c : Dev nD) : (dats m 0 c).arrAt 3 cfg0.N = result m c :=
  (dats m 0 c).arrAt_eq_of_cover 3 (result m c) (fun t _ => flushed_eq m c t) covered

/-- The kernel's run, read: the result array at the spread of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Trop

end
-- ==== Proof.RefValue.lean ====
/-
  The reference computes the spread.

  The reference forms the 8192 × 64 × 512 array `(b, u, d) ↦ x(b, d) + w(u, d)` by two broadcasts each of `x` and `w` and
  one addition, reduces it along `d` once with `max` from −∞ and once with `min` from +∞, subtracts, and adds the bias
  broadcast along `b`. Read at `(b, u)`: each reduction over one axis is the fold over that axis's 512 coordinates of the
  array at `(b, u, d)`, and the array there is `x(b, d) + w(u, d)`. That is the definition of the spread.
-/
import proofs.«119551_j8091718386440_1_alg».proof.Proof.Gen.ReferenceIdeal.Read
import proofs.«119551_j8091718386440_1_alg».proof.Proof.LibMinReduce
import proofs.«119551_j8091718386440_1_alg».proof.Proof.Spread
import Idealize.ShloMosaic.PureOps.Ideal.Laws
import Idealize.ShloMosaic.Lib.ValueIdx

noncomputable section

namespace Cert.ReferenceIdeal.Trop

open Cert.ReferenceIdeal Cert.ReferenceIdeal.Gen Cert.ReferenceIdeal.Read Idealize.ShloMosaic Idealize.ShloMosaic.ValueIdx Cert.Trop

/-- The shape fact that names the index with a coordinate inserted on the reduced axis. -/
theorem reduces_last : S8192x64x512.Reduces [2] S8192x64 := by decide

/-- The three-axis index over `(b, u)` with `d` on the reduced (last) axis is `(b, u, d)`. -/
theorem lift_last (h : S8192x64x512.Reduces [2] S8192x64) (b : Fin 8192) (u : Fin 64) (d : Fin 512) :
    h.lift (ix2 b u) d = ix3 b u d := by
  funext a
  match a with
  | ⟨0, _⟩ => rfl
  | ⟨1, _⟩ => rfl
  | ⟨2, _⟩ => rfl

/-- The host's maximum along the last axis, at `(b, u)`: the fold of `max` from the initial value over `d`. -/
theorem host_max_last (src : FVec Ideal S8192x64x512 .f32) (init : S_.Idx → Ideal .f32)
    (h' : S8192x64x512.ReducesTo [2] S8192x64) (hu : 0 < S_.numel) (b : Fin 8192) (u : Fin 64) :
    Host.reduce (FloatOps.maximumf (F := Ideal) (φ := .f32)) src init h' hu (ix2 b u)
      = (Finset.univ : Finset (Fin 512)).fold max (init (Shape.Idx.first hu)) (fun d => src (ix3 b u d)) := by
  rw [Host.reduce_eq_fold_single (FloatOps.maximumf (F := Ideal) (φ := .f32)) src init h' reduces_last hu (ix2 b u),
    show (src ∘ reduces_last.lift (ix2 b u)) = (fun d : Fin 512 => src (ix3 b u d)) from
      funext fun d => congrArg src (lift_last reduces_last b u d)]
  rfl

/-- The host's minimum along the last axis, at `(b, u)`: the fold of `min` from the initial value over `d`. -/
theorem host_min_last (src : FVec Ideal S8192x64x512 .f32) (init : S_.Idx → Ideal .f32)
    (h' : S8192x64x512.ReducesTo [2] S8192x64) (hu : 0 < S_.numel) (b : Fin 8192) (u : Fin 64) :
    Host.reduce (FloatOps.minimumf (F := Ideal) (φ := .f32)) src init h' hu (ix2 b u)
      = (Finset.univ : Finset (Fin 512)).fold min (init (Shape.Idx.first hu)) (fun d => src (ix3 b u d)) := by
  rw [Cert.LibMinReduce.hostReduce_minimumf_single src init h' reduces_last hu (ix2 b u),
    show (src ∘ reduces_last.lift (ix2 b u)) = (fun d : Fin 512 => src (ix3 b u d)) from
      funext fun d => congrArg src (lift_last reduces_last b u d)]
  rfl

/-- The array of sums at `(b, u, d)`. -/
theorem sums_at (x0 : (⟨S8192x512, .f32⟩ : BufTy).Contents (Elt Ideal)) (x1 : (⟨S64x512, .f32⟩ : BufTy).Contents (Elt Ideal))
    (b : Fin 8192) (u : Fin 64) (d : Fin 512) :
    val_main_v4 (F := Ideal) x0 x1 (ix3 b u d) = x0 (ix2 b d) + x1 (ix2 u d) := by
  rw [val_main_v4_apply, val_main_v2_apply, val_main_v0_apply, val_main_v3_apply, val_main_v1_apply]
  have e0 : idx_main_v0 (idx_main_v2 (ix3 b u d)) = ix2 b d := by
    funext a; match a with | ⟨0, _⟩ => rfl | ⟨1, _⟩ => rfl
  have e1 : idx_main_v1 (idx_main_v3 (ix3 b u d)) = ix2 u d := by
    funext a; match a with | ⟨0, _⟩ => rfl | ⟨1, _⟩ => rfl
  rw [e0, e1]
  rfl

/-- The bias broadcast along `b`, at `(b, u)`. -/
theorem bias_at (x2 : (⟨S64, .f32⟩ : BufTy).Contents (Elt Ideal)) (b : Fin 8192) (u : Fin 64) :
    val_main_v9 (F := Ideal) x2 (ix2 b u) = x2 (ix1 u) := by
  rw [val_main_v9_apply, val_main_v8_apply]
  have e : idx_main_v8 (idx_main_v9 (ix2 b u)) = ix1 u := by
    funext a; match a with | ⟨0, _⟩ => rfl
  rw [e]

/-- THE REFERENCE'S RESULT is the spread of its arguments. -/
theorem result_eq (x0 : (⟨S8192x512, .f32⟩ : BufTy).Contents (Elt Ideal)) (x1 : (⟨S64x512, .f32⟩ : BufTy).Contents (Elt Ideal))
    (x2 : (⟨S64, .f32⟩ : BufTy).Contents (Elt Ideal)) :
    val_main_v10 (F := Ideal) x0 x1 x2 = spread x0 x1 x2 := by
  funext i
  obtain ⟨b, u, rfl⟩ : ∃ (b : Fin 8192) (u : Fin 64), i = ix2 b u := ⟨i 0, i 1, eq_ix2 i⟩
  rw [spread_ix2, val_main_v10_apply, val_main_v7_apply, bias_at]
  unfold val_main_v5 val_main_v6
  rw [host_max_last, host_min_last]
  have hs : (fun d : Fin 512 => val_main_v4 (F := Ideal) x0 x1 (ix3 b u d)) = pairSums x0 x1 b u :=
    funext fun d => sums_at x0 x1 b u d
  rw [hs]
  rfl

end Cert.ReferenceIdeal.Trop

end
-- ==== Proof.lean ====
/-
  The kernel and its reference compute one function: for `x` (8192 × 512), `w` (64 × 512) and `bias` (64),

      out(b, u) = max_d (x(b, d) + w(u, d)) − min_d (x(b, d) + w(u, d)) + bias(u).

  The kernel walks 16 blocks of 512 rows of `x`; inside a block it takes the maximum and the minimum over the 512 columns
  in four instalments of 128, folding each instalment's maximum (minimum) into a running value that starts at −∞ (+∞).
  The reference builds the whole 8192 × 64 × 512 array of sums and reduces it once along its last axis with `max` and
  once with `min`. On the extended reals `max` and `min` are associative, commutative and idempotent, so a running
  extremum over instalments that cover the columns is the extremum over all columns, whatever the starting constant; the
  sums, the subtraction and the addition of the bias are the same operations on both sides. No finiteness of the inputs
  is used.

  The three frame claims are the generated frames (the reference's from its generated run). The kernel's idealization
  rewrote nothing, so there is nothing to preserve. The value claim puts the two runs side by side, both posted at the
  same function `spread` of the arguments (Proof/Spread.lean): the kernel's by Proof/KernelValue.lean (over
  Proof/BodyBlock.lean, Proof/BlockEntry.lean and the order-theoretic law of Proof/Instalments.lean), the reference's
  by Proof/RefValue.lean.
-/
import proofs.«119551_j8091718386440_1_alg».proof.Defs
import proofs.«119551_j8091718386440_1_alg».proof.Proof.Gen.Kernel
import proofs.«119551_j8091718386440_1_alg».proof.Proof.Gen.Kernel.Skeleton
import proofs.«119551_j8091718386440_1_alg».proof.Proof.Gen.Kernel.Launch
import proofs.«119551_j8091718386440_1_alg».proof.Proof.Gen.Kernel.Points
import proofs.«119551_j8091718386440_1_alg».proof.Proof.Gen.Kernel.Frame
import proofs.«119551_j8091718386440_1_alg».proof.Proof.Gen.KernelIdeal
import proofs.«119551_j8091718386440_1_alg».proof.Proof.Gen.KernelIdeal.Skeleton
import proofs.«119551_j8091718386440_1_alg».proof.Proof.Gen.KernelIdeal.Launch
import proofs.«119551_j8091718386440_1_alg».proof.Proof.Gen.KernelIdeal.Points
import proofs.«119551_j8091718386440_1_alg».proof.Proof.Gen.KernelIdeal.Frame
import proofs.«119551_j8091718386440_1_alg».proof.Proof.Gen.ReferenceIdeal
import proofs.«119551_j8091718386440_1_alg».proof.Proof.Gen.KernelIdeal.Value
import proofs.«119551_j8091718386440_1_alg».proof.Proof.Gen.ReferenceIdeal.Run
import proofs.«119551_j8091718386440_1_alg».proof.Proof.Gen.ReferenceIdeal.Read
import proofs.«119551_j8091718386440_1_alg».proof.Proof.Gen.Pre_finite_inputs
import proofs.«119551_j8091718386440_1_alg».proof.Proof.KernelValue
import proofs.«119551_j8091718386440_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `w` and `bias`, both programs end with the result array at the spread of the
    arguments: the kernel block by block in four instalments, the reference in one reduction. -/
theorem algebraic : Cert.algebraic_KernelIdeal_ReferenceIdeal := by
  intro m ρ m' ρ' _ hagree
  refine ⟨fun c => Cert.KernelIdeal.Trop.result m c, Cert.KernelIdeal.Trop.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans (Cert.ReferenceIdeal.Trop.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
